-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S50000 : Shape := ⟨1, ![50000]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000 : S_.BroadcastsInDim S50000 (![] : Fin 0 → Fin S50000.rank)
  reducesTo_S50000_S_d0 : S50000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S256x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S800000 32) (main_arg2 : IVec S800000 32) (main_arg3 : FVec F S50000 .f32) (main_arg4 : FVec F S256x128 .f32) (main_arg5 : FVec F S128 .f32) (main_arg6 : FVec F S256x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000 .f32 := Host.absf main_arg3
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x128 : Shape := ⟨2, ![50000, 128]⟩
abbrev S800000 : Shape := ⟨1, ![800000]⟩
abbrev S50000 : Shape := ⟨1, ![50000]⟩
abbrev S256x128 : Shape := ⟨2, ![256, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S128x128 : Shape := ⟨2, ![128, 128]⟩
abbrev S1x128 : Shape := ⟨2, ![1, 128]⟩
abbrev S5000x128 : Shape := ⟨2, ![5000, 128]⟩
abbrev S5000x1 : Shape := ⟨2, ![5000, 1]⟩
abbrev S50000x256 : Shape := ⟨2, ![50000, 256]⟩

abbrev nBuf : Space → Nat
  | .hbm => 45
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S50000, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S_, .f32⟩
  | .hbm, ⟨18, _⟩ => ⟨S50000x128, .f32⟩
  | .hbm, ⟨19, _⟩ => ⟨S800000x1, .i32⟩
  | .hbm, ⟨20, _⟩ => ⟨S50000x128, .f32⟩
  | .hbm, ⟨21, _⟩ => ⟨S50000x1, .f32⟩
  | .hbm, ⟨22, _⟩ => ⟨S128x128, .f32⟩
  | .hbm, ⟨23, _⟩ => ⟨S128x128, .f32⟩
  | .hbm, ⟨24, _⟩ => ⟨S1x128, .f32⟩
  | .hbm, ⟨25, _⟩ => ⟨S50000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x1, .f32⟩
  | .hbm, ⟨40, _⟩ => ⟨S128x128, .f32⟩
  | .hbm, ⟨41, _⟩ => ⟨S128x128, .f32⟩
  | .hbm, ⟨42, _⟩ => ⟨S1x128, .f32⟩
  | .hbm, ⟨43, _⟩ => ⟨S50000x128, .f32⟩
  | .hbm, ⟨44, _⟩ => ⟨S50000x256, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S50000_S50000x1 : S50000.ShapeCasts S50000x1
  slices_S256x128_S128x128_0_0 : S256x128.Slices ![0, 0] S128x128
  slices_S256x128_S128x128_128_0 : S256x128.Slices ![128, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  concatenates_S50000x128_S50000x128_S50000x256_d1 : Shape.Concatenates [S50000x128, S50000x128] S50000x256 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S50000 : Shape := ⟨1, ![50000]⟩
abbrev S256x128 : Shape := ⟨2, ![256, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S50000x256 : Shape := ⟨2, ![50000, 256]⟩
abbrev S1x128 : Shape := ⟨2, ![1, 128]⟩

abbrev nBuf : Space → Nat
  | .hbm => 63
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S50000, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S_, .f32⟩
  | .hbm, ⟨18, _⟩ => ⟨S50000x128, .f32⟩
  | .hbm, ⟨19, _⟩ => ⟨S800000x1, .i32⟩
  | .hbm, ⟨20, _⟩ => ⟨S50000x128, .f32⟩
  | .hbm, ⟨21, _⟩ => ⟨S50000x1, .f32⟩
  | .hbm, ⟨22, _⟩ => ⟨S_, .f32⟩
  | .hbm, ⟨23, _⟩ => ⟨S50000x1, .f32⟩
  | .hbm, ⟨24, _⟩ => ⟨S50000x1, .f32⟩
  | .hbm, ⟨25, _⟩ => ⟨S50000x128, .f32⟩
  | .hbm, ⟨26, _⟩ => ⟨S50000x128, .f32⟩
  | .hbm, ⟨27, _⟩ => ⟨S50000x256, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S50000x1, .f32⟩
  | .hbm, ⟨49, _⟩ => ⟨S_, .f32⟩
  | .hbm, ⟨50, _⟩ => ⟨S50000x1, .f32⟩
  | .hbm, ⟨51, _⟩ => ⟨S50000x1, .f32⟩
  | .hbm, ⟨52, _⟩ => ⟨S50000x128, .f32⟩
  | .hbm, ⟨53, _⟩ => ⟨S50000x128, .f32⟩
  | .hbm, ⟨54, _⟩ => ⟨S50000x256, .f32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call1_cst : Ref sig .tc := ⟨.hbm, 59, rfl⟩
abbrev main_call1_v0 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LayerSpec.lean ====
/-
  One graph-convolution layer as a function of whole arrays, entry by entry, on the extended reals.

  For node features `h`, the per-destination sums of neighbour features `ns`, the neighbour counts `nn`, a weight
  matrix given as its two halves `wt` (rows for `h`) and `wb` (rows for the normalised neighbour mean) and a bias `b`,
  entry `(p, q)` of the layer is

      max ( Σ_k h[p,k] · wt[k,q]  +  Σ_k (ns[p,k] / (nn[p] + ε)) · wb[k,q]  +  b[q] , 0 ).

  The row count `n` is a parameter: the same formula describes one block of rows and the whole array, which is what
  lets a block of the output be read as the restriction of the whole-array function.
-/
import Idealize.ShloMosaic.PureOps.Ideal
import Idealize.ShloMosaic.Lib.ValueIdx

noncomputable section

open scoped BigOperators

namespace Cert.Layer

open Idealize.ShloMosaic Idealize.ShloMosaic.ValueIdx

/-- The small positive constant added to the neighbour count before dividing (the same binary word on both sides). -/
abbrev eps : EReal := Ideal.ofBits .f32 0x33D6BF95#32

/-- Entry `(p, q)` of the layer: the feature row times the top half of the weights, plus the normalised neighbour row
    times the bottom half, plus the bias, clipped below at zero. -/
def entry {n : Nat} (h ns : (⟨2, ![n, 128]⟩ : Shape).Idx → EReal) (nn : (⟨2, ![n, 1]⟩ : Shape).Idx → EReal)
    (wt wb : (⟨2, ![128, 128]⟩ : Shape).Idx → EReal) (b : (⟨2, ![1, 128]⟩ : Shape).Idx → EReal)
    (p : Fin n) (q : Fin 128) : EReal :=
  max (((∑ k : Fin 128, h (ix2 p k) * wt (ix2 k q))
        + ∑ k : Fin 128, Ideal.div (ns (ix2 p k)) (nn (ix2 p (0 : Fin 1)) + eps) * wb (ix2 k q))
       + b (ix2 (0 : Fin 1) q)) 0

/-- The layer as an array of `n` rows. -/
def rows {n : Nat} (h ns : (⟨2, ![n, 128]⟩ : Shape).Idx → EReal) (nn : (⟨2, ![n, 1]⟩ : Shape).Idx → EReal)
    (wt wb : (⟨2, ![128, 128]⟩ : Shape).Idx → EReal) (b : (⟨2, ![1, 128]⟩ : Shape).Idx → EReal) :
    (⟨2, ![n, 128]⟩ : Shape).Idx → EReal :=
  fun i => entry h ns nn wt wb b (i 0) (i 1)

theorem rows_ix2 {n : Nat} (h ns : (⟨2, ![n, 128]⟩ : Shape).Idx → EReal) (nn : (⟨2, ![n, 1]⟩ : Shape).Idx → EReal)
    (wt wb : (⟨2, ![128, 128]⟩ : Shape).Idx → EReal) (b : (⟨2, ![1, 128]⟩ : Shape).Idx → EReal) (p : Fin n) (q : Fin 128) :
    rows h ns nn wt wb b (ix2 p q) = entry h ns nn wt wb b p q := rfl

/-- The layer on the arrays as the programs' arguments give them: the counts as a vector, the weights as one
    `[256, 128]` matrix whose first 128 rows multiply `h` and whose last 128 rows multiply the neighbour mean, the bias
    as a vector. -/
def layer (h ns : (⟨2, ![50000, 128]⟩ : Shape).Idx → EReal) (nn : (⟨1, ![50000]⟩ : Shape).Idx → EReal)
    (W : (⟨2, ![256, 128]⟩ : Shape).Idx → EReal) (b : (⟨1, ![128]⟩ : Shape).Idx → EReal) :
    (⟨2, ![50000, 128]⟩ : Shape).Idx → EReal :=
  rows h ns (fun i => nn (ix1 (i 0))) (fun i => W (ix2 (Fin.castAdd 128 (i 0)) (i 1)))
    (fun i => W (ix2 (Fin.natAdd 128 (i 0)) (i 1))) (fun i => b (ix1 (i 1)))

/-- A sum over the 256 rows of the weight matrix is the sum over its first 128 rows plus the sum over its last 128:
    addition of extended reals is commutative and associative, so no finiteness is needed. -/
theorem sum_256_split (f : Fin 256 → EReal) :
    ∑ k : Fin 256, f k = (∑ k : Fin 128, f (Fin.castAdd 128 k)) + ∑ k : Fin 128, f (Fin.natAdd 128 k) :=
  Fin.sum_univ_add (a := 128) (b := 128) f

end Cert.Layer

end
-- ==== Proof.KernelBlock.lean ====
/-
  What one grid point of either kernel region computes from its input blocks, at the ideal instance: the body's stored
  value is the graph-convolution layer `Cert.Layer.rows` on the block's 5000 rows. The two format changes to bf16
  are the identity on extended reals, each matrix product into a zero accumulator is the plain sum over the 128
  contracted entries, and the shape casts to the same shape change nothing.
-/
import proofs.«147471_j32341103738939_1_alg».proof.Proof.Gen.KernelIdeal.Skeleton
import proofs.«147471_j32341103738939_1_alg».proof.Proof.LayerSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- A column `[a, 1]` broadcast to `[a, b]` reads, at `(p, c)`, the column's entry in row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's row coordinate is the output's row. -/
private theorem lhs_dot_0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- The left operand's column coordinate is the contracted one. -/
private theorem lhs_dot_1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- The right operand's row coordinate is the contracted one. -/
private theorem rhs_dot_0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- The right operand's column coordinate is the output's column. -/
private theorem rhs_dot_1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A matrix product into a zero accumulator, read at `(p, q)`, is the sum over the 128 contracted entries of
    row `p` of the left operand times column `q` of the right operand. -/
private theorem matmul_zero_ix2 (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_dot_0 _ _
      | ⟨1, _⟩ => exact (lhs_dot_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs_dot_0 _ _).trans hk
      | ⟨1, _⟩ => exact rhs_dot_1 _ _)
  rw [el, er]

/-- The first region's stored value is the layer on the block's rows. -/
theorem pay0_eq (x0 x1 : Vec Ideal S5000x128 .f32) (x2 : Vec Ideal S5000x1 .f32) (x3 x4 : Vec Ideal S128x128 .f32)
    (x5 : Vec Ideal S1x128 .f32) :
    k0_pay1 (F := Ideal) x0 x1 x2 x3 x4 x5 = Cert.Layer.rows (n := 5000) x0 x1 x2 x3 x4 x5 := by
  funext j
  obtain ⟨p, q, rfl⟩ : ∃ (p : Fin 5000) (q : Fin 128), j = ix2 p q := ⟨j 0, j 1, eq_ix2 j⟩
  rw [Cert.Layer.rows_ix2]
  unfold k0_pay1 Cert.Layer.entry
  -- the shape casts to the same shape are the identity
  simp only [shapeCast_self]
  -- the outer maximum and the two sums read entry by entry; each product is the sum over the contracted index; the
  -- bias row is read at column `q`
  rw [maximumf_apply, addf_apply, addf_apply, matmul_zero_ix2, matmul_zero_ix2, broadcastTo_1b_ab_apply,
    broadcast_apply]
  -- inside the sums: the format changes are the identity, the quotient is taken entry by entry, and the count column
  -- is read at row `p`
  simp only [truncf_apply, divf_apply, broadcastTo_a1_ab_apply, addf_apply, broadcast_apply]
  -- the zero word is the number zero
  exact congrArg (max _) Ideal.ofBits_zero_f32

/-- The second region's stored value is the same function of its blocks. -/
theorem pay1_eq (x0 x1 : Vec Ideal S5000x128 .f32) (x2 : Vec Ideal S5000x1 .f32) (x3 x4 : Vec Ideal S128x128 .f32)
    (x5 : Vec Ideal S1x128 .f32) :
    k1_pay1 (F := Ideal) x0 x1 x2 x3 x4 x5 = Cert.Layer.rows (n := 5000) x0 x1 x2 x3 x4 x5 := by
  funext j
  obtain ⟨p, q, rfl⟩ : ∃ (p : Fin 5000) (q : Fin 128), j = ix2 p q := ⟨j 0, j 1, eq_ix2 j⟩
  rw [Cert.Layer.rows_ix2]
  unfold k1_pay1 Cert.Layer.entry
  -- the shape casts to the same shape are the identity
  simp only [shapeCast_self]
  -- the outer maximum and the two sums read entry by entry; each product is the sum over the contracted index; the
  -- bias row is read at column `q`
  rw [maximumf_apply, addf_apply, addf_apply, matmul_zero_ix2, matmul_zero_ix2, broadcastTo_1b_ab_apply,
    broadcast_apply]
  -- inside the sums: the format changes are the identity, the quotient is taken entry by entry, and the count column
  -- is read at row `p`
  simp only [truncf_apply, divf_apply, broadcastTo_a1_ab_apply, addf_apply, broadcast_apply]
  -- the zero word is the number zero
  exact congrArg (max _) Ideal.ofBits_zero_f32

end Cert.KernelIdeal.Block

end
-- ==== Proof.KernelRegion.lean ====
/-
  What each kernel region leaves in its output array, as ONE function of the arrays the region finds when it is
  entered: the graph-convolution layer `Cert.Layer.rows` on all 50000 rows.

  A region runs its body at ten grid points; point `t` stages rows `5000 t … 5000 t + 4999` of the features, of the
  neighbour sums and of the count column, and the whole weight halves and bias row, and writes back rows
  `5000 t … 5000 t + 4999` of the output. The body's stored value is the layer on the staged rows, and the layer is
  computed row by row, so block `t` of the output is block `t` of the layer on the whole arrays; the ten blocks
  tile the output.
-/
import proofs.«147471_j32341103738939_1_alg».proof.Proof.Gen.KernelIdeal.Frame
import proofs.«147471_j32341103738939_1_alg».proof.Proof.KernelBlock
import Idealize.ShloMosaic.Lib.Pipeline.Value
import Idealize.ShloMosaic.Lib.ValueIdx

set_option maxRecDepth 16384

noncomputable section

open scoped BigOperators

namespace Cert.KernelIdeal.Region

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The layer's entry `(p, q)` on a block of 5000 rows is its entry `(5000 T + p, q)` on the whole arrays, when the
    block's rows are rows `5000 T …` of the arrays and the weights and bias are the same. -/
theorem entry_of_block (H NS : (⟨2, ![50000, 128]⟩ : Shape).Idx → EReal) (NN : (⟨2, ![50000, 1]⟩ : Shape).Idx → EReal)
    (WT WB : (⟨2, ![128, 128]⟩ : Shape).Idx → EReal) (B : (⟨2, ![1, 128]⟩ : Shape).Idx → EReal)
    (x0 x1 : (⟨2, ![5000, 128]⟩ : Shape).Idx → EReal) (x2 : (⟨2, ![5000, 1]⟩ : Shape).Idx → EReal)
    (x3 x4 : (⟨2, ![128, 128]⟩ : Shape).Idx → EReal) (x5 : (⟨2, ![1, 128]⟩ : Shape).Idx → EReal)
    {P : Nat} (hP : P < 50000) (p : Fin 5000) (q : Fin 128)
    (h0 : ∀ k : Fin 128, x0 (ix2 p k) = H (ix2 (⟨P, hP⟩ : Fin 50000) k))
    (h1 : ∀ k : Fin 128, x1 (ix2 p k) = NS (ix2 (⟨P, hP⟩ : Fin 50000) k))
    (h2 : x2 (ix2 p (0 : Fin 1)) = NN (ix2 (⟨P, hP⟩ : Fin 50000) (0 : Fin 1)))
    (h3 : ∀ (k r : Fin 128), x3 (ix2 k r) = WT (ix2 k r))
    (h4 : ∀ (k r : Fin 128), x4 (ix2 k r) = WB (ix2 k r))
    (h5 : ∀ r : Fin 128, x5 (ix2 (0 : Fin 1) r) = B (ix2 (0 : Fin 1) r)) :
    Cert.Layer.entry (n := 5000) x0 x1 x2 x3 x4 x5 p q = Cert.Layer.entry (n := 50000) H NS NN WT WB B ⟨P, hP⟩ q := by
  unfold Cert.Layer.entry
  simp only [h0, h1, h2, h3, h4, h5]

variable (V : (c : Dev nD) → (b : Ref sig .tc) → Buf (Elt Ideal) ((c : Thread nD τ).loc b))

/-! ## Region 0 -/

/-- The printed index maps over the grid: the three row-blocked inputs and the output sit at block `t` of the rows
    and block 0 of the columns; the weights and the bias are whole (block 0 of both axes). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- WHAT POINT `t` WRITES BACK: block `t` of the layer on the arrays as the region finds them. Row `p` of the block
    is row `5000 t + p` of the arrays; the weights' and the bias's blocks are the whole arrays. -/
theorem flushed0_eq (c : Dev nD) (t : Fin cfg0.N) :
    (dat0 V c).flushed 6 t = ((cfg0.win 6).blk t).view.read (Elt Ideal)
      (Cert.Layer.rows (n := 50000) (V c main_arg0) (V c main_v9) (V c main_v10) (V c main_v11) (V c main_v12) (V c main_v13)) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  rw [Block.pay0_eq]
  obtain ⟨e00, e01, e10, e11, e20, e21, e30, e31, e40, e41, e50, e51, e60, e61⟩ := idx_facts0 t
  have ht : t.val < 10 := t.isLt
  funext j
  obtain ⟨p, q, rfl⟩ : ∃ (p : Fin 5000) (q : Fin 128), j = ix2 p q := ⟨j 0, j 1, eq_ix2 j⟩
  have hrow : t.val * 5000 + p.val < 50000 := by have := p.isLt; omega
  show Cert.Layer.entry (n := 5000) (iblk0 V c 0 t) (iblk0 V c 1 t) (iblk0 V c 2 t) (iblk0 V c 3 t) (iblk0 V c 4 t) (iblk0 V c 5 t) p q
    = Cert.Layer.rows (n := 50000) (V c main_arg0) (V c main_v9) (V c main_v10) (V c main_v11) (V c main_v12) (V c main_v13)
        (((cfg0.win 6).blk t).view.emb (ix2 p q))
  have hemb : ((cfg0.win 6).blk t).view.emb (ix2 p q) = (ix2 (⟨t.val * 5000 + p.val, hrow⟩ : Fin 50000) q : S50000x128.Idx) := by
    funext a; apply Fin.ext
    match a with
    | ⟨0, _⟩ => show win0_6.index t (0 : Fin 2) * 5000 + 1 * p.val = t.val * 5000 + p.val; omega
    | ⟨1, _⟩ => show win0_6.index t (1 : Fin 2) * 128 + 1 * q.val = q.val; omega
  rw [hemb, Cert.Layer.rows_ix2]
  refine entry_of_block _ _ _ _ _ _ _ _ _ _ _ _ hrow p q ?_ ?_ ?_ ?_ ?_ ?_
  · intro k
    show V c main_arg0 (((cfg0.win 0).blk t).view.emb (ix2 p k)) = V c main_arg0 (ix2 (⟨t.val * 5000 + p.val, hrow⟩ : Fin 50000) k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k
    show V c main_v9 (((cfg0.win 1).blk t).view.emb (ix2 p k)) = V c main_v9 (ix2 (⟨t.val * 5000 + p.val, hrow⟩ : Fin 50000) k)
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 128 + 1 * k.val = k.val; omega
  · show V c main_v10 (((cfg0.win 2).blk t).view.emb (ix2 p (0 : Fin 1))) = V c main_v10 (ix2 (⟨t.val * 5000 + p.val, hrow⟩ : Fin 50000) (0 : Fin 1))
    refine congrArg _ (funext fun a => Fin.ext ?_)
    match a with
    | ⟨0, _⟩ => show win0_2.index t (0 : Fin 2) * 5000 + 1 * p.val = t.val * 5000 + p.val; omega
    | ⟨1, _⟩ => show win0_2.index t (1 : Fin 2) * 1 + 1 * 0 = 0; omega
  · intro k r
    show V c main_v11 (((cfg0.win 3).blk t).view.emb (ix2 k r)) = V c main_v11 (ix2 k r)
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * r.val = r.val; omega
  · intro k r
    show V c main_v12 (((cfg0.win 4).blk t).view.emb (ix2 k r)) = V c main_v12 (ix2 k r)
    refine congrArg _ (funext fun a => Fin.ext ?_)
    match a with
    | ⟨0, _⟩ => show win0_4.index t (0 : Fin 2) * 128 + 1 * k.val = k.val; omega
    | ⟨1, _⟩ => show win0_4.index t (1 : Fin 2) * 128 + 1 * r.val = r.val; omega
  · intro r
    show V c main_v13 (((cfg0.win 5).blk t).view.emb (ix2 (0 : Fin 1) r)) = V c main_v13 (ix2 (0 : Fin 1) r)
    refine congrArg _ (funext fun a => Fin.ext ?_)
    match a with
    | ⟨0, _⟩ => show win0_5.index t (0 : Fin 2) * 1 + 1 * 0 = 0; omega
    | ⟨1, _⟩ => show win0_5.index t (1 : Fin 2) * 128 + 1 * r.val = r.val; omega

/-- An index of the output array is in point `t`'s block iff each coordinate is in the block's range on its axis. -/
theorem mem_blk0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v14).slice (win0_6.rect t)).set ↔ _
  rw [View.set_slice_whole, Rect.mem_set_unit]
  exact Iff.rfl

/-- The ten row blocks cover the output array: row `r` lies in block `r / 5000`. -/
theorem cover0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  refine ⟨⟨(i 0).val / 5000, by show (i 0).val / 5000 < 10; omega⟩, flush0_6 _, ?_⟩
  obtain ⟨e00, e01, e10, e11, e20, e21, e30, e31, e40, e41, e50, e51, e60, e61⟩ := idx_facts0 ⟨(i 0).val / 5000, by show (i 0).val / 5000 < 10; omega⟩
  rw [mem_blk0]
  intro a
  match a with
  | ⟨0, _⟩ =>
    show win0_6.index _ (0 : Fin 2) * 5000 ≤ (i 0).val ∧ (i 0).val < win0_6.index _ (0 : Fin 2) * 5000 + 5000
    rw [e60]; show (i 0).val / 5000 * 5000 ≤ (i 0).val ∧ (i 0).val < (i 0).val / 5000 * 5000 + 5000; omega
  | ⟨1, _⟩ =>
    show win0_6.index _ (1 : Fin 2) * 128 ≤ (i 1).val ∧ (i 1).val < win0_6.index _ (1 : Fin 2) * 128 + 128
    rw [e61]; omega

/-- THE OUTPUT ARRAY after the region: the layer on the arrays the region finds at its entry. -/
theorem final0 (c : Dev nD) :
    (dat0 V c).arrAt 6 cfg0.N
      = Cert.Layer.rows (n := 50000) (V c main_arg0) (V c main_v9) (V c main_v10) (V c main_v11) (V c main_v12) (V c main_v13) :=
  (dat0 V c).arrAt_eq_of_cover 6 _ (fun t _ => flushed0_eq V c t) (cover0)

/-! ## Region 1 -/

/-- The printed index maps over the grid: the three row-blocked inputs and the output sit at block `t` of the rows
    and block 0 of the columns; the weights and the bias are whole (block 0 of both axes). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- WHAT POINT `t` WRITES BACK: block `t` of the layer on the arrays as the region finds them. Row `p` of the block
    is row `5000 t + p` of the arrays; the weights' and the bias's blocks are the whole arrays. -/
theorem flushed1_eq (c : Dev nD) (t : Fin cfg1.N) :
    (dat1 V c).flushed 6 t = ((cfg1.win 6).blk t).view.read (Elt Ideal)
      (Cert.Layer.rows (n := 50000) (V c main_v14) (V c main_v24) (V c main_v25) (V c main_v26) (V c main_v27) (V c main_v28)) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz,
    View.ld_unit_zero (S := S128x128) hz, View.ld_unit_zero (S := S1x128) hz]
  rw [Block.pay1_eq]
  obtain ⟨e00, e01, e10, e11, e20, e21, e30, e31, e40, e41, e50, e51, e60, e61⟩ := idx_facts1 t
  have ht : t.val < 10 := t.isLt
  funext j
  obtain ⟨p, q, rfl⟩ : ∃ (p : Fin 5000) (q : Fin 128), j = ix2 p q := ⟨j 0, j 1, eq_ix2 j⟩
  have hrow : t.val * 5000 + p.val < 50000 := by have := p.isLt; omega
  show Cert.Layer.entry (n := 5000) (iblk1 V c 0 t) (iblk1 V c 1 t) (iblk1 V c 2 t) (iblk1 V c 3 t) (iblk1 V c 4 t) (iblk1 V c 5 t) p q
    = Cert.Layer.rows (n := 50000) (V c main_v14) (V c main_v24) (V c main_v25) (V c main_v26) (V c main_v27) (V c main_v28)
        (((cfg1.win 6).blk t).view.emb (ix2 p q))
  have hemb : ((cfg1.win 6).blk t).view.emb (ix2 p q) = (ix2 (⟨t.val * 5000 + p.val, hrow⟩ : Fin 50000) q : S50000x128.Idx) := by
    funext a; apply Fin.ext
    match a with
    | ⟨0, _⟩ => show win1_6.index t (0 : Fin 2) * 5000 + 1 * p.val = t.val * 5000 + p.val; omega
    | ⟨1, _⟩ => show win1_6.index t (1 : Fin 2) * 128 + 1 * q.val = q.val; omega
  rw [hemb, Cert.Layer.rows_ix2]
  refine entry_of_block _ _ _ _ _ _ _ _ _ _ _ _ hrow p q ?_ ?_ ?_ ?_ ?_ ?_
  · intro k
    show V c main_v14 (((cfg1.win 0).blk t).view.emb (ix2 p k)) = V c main_v14 (ix2 (⟨t.val * 5000 + p.val, hrow⟩ : Fin 50000) k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · intro k
    show V c main_v24 (((cfg1.win 1).blk t).view.emb (ix2 p k)) = V c main_v24 (ix2 (⟨t.val * 5000 + p.val, hrow⟩ : Fin 50000) k)
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega
  · show V c main_v25 (((cfg1.win 2).blk t).view.emb (ix2 p (0 : Fin 1))) = V c main_v25 (ix2 (⟨t.val * 5000 + p.val, hrow⟩ : Fin 50000) (0 : Fin 1))
    refine congrArg _ (funext fun a => Fin.ext ?_)
    match a with
    | ⟨0, _⟩ => show win1_2.index t (0 : Fin 2) * 5000 + 1 * p.val = t.val * 5000 + p.val; omega
    | ⟨1, _⟩ => show win1_2.index t (1 : Fin 2) * 1 + 1 * 0 = 0; omega
  · intro k r
    show V c main_v26 (((cfg1.win 3).blk t).view.emb (ix2 k r)) = V c main_v26 (ix2 k r)
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * r.val = r.val; omega
  · intro k r
    show V c main_v27 (((cfg1.win 4).blk t).view.emb (ix2 k r)) = V c main_v27 (ix2 k r)
    refine congrArg _ (funext fun a => Fin.ext ?_)
    match a with
    | ⟨0, _⟩ => show win1_4.index t (0 : Fin 2) * 128 + 1 * k.val = k.val; omega
    | ⟨1, _⟩ => show win1_4.index t (1 : Fin 2) * 128 + 1 * r.val = r.val; omega
  · intro r
    show V c main_v28 (((cfg1.win 5).blk t).view.emb (ix2 (0 : Fin 1) r)) = V c main_v28 (ix2 (0 : Fin 1) r)
    refine congrArg _ (funext fun a => Fin.ext ?_)
    match a with
    | ⟨0, _⟩ => show win1_5.index t (0 : Fin 2) * 1 + 1 * 0 = 0; omega
    | ⟨1, _⟩ => show win1_5.index t (1 : Fin 2) * 128 + 1 * r.val = r.val; omega

/-- An index of the output array is in point `t`'s block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v29).slice (win1_6.rect t)).set ↔ _
  rw [View.set_slice_whole, Rect.mem_set_unit]
  exact Iff.rfl

/-- The ten row blocks cover the output array: row `r` lies in block `r / 5000`. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  refine ⟨⟨(i 0).val / 5000, by show (i 0).val / 5000 < 10; omega⟩, flush1_6 _, ?_⟩
  obtain ⟨e00, e01, e10, e11, e20, e21, e30, e31, e40, e41, e50, e51, e60, e61⟩ := idx_facts1 ⟨(i 0).val / 5000, by show (i 0).val / 5000 < 10; omega⟩
  rw [mem_blk1]
  intro a
  match a with
  | ⟨0, _⟩ =>
    show win1_6.index _ (0 : Fin 2) * 5000 ≤ (i 0).val ∧ (i 0).val < win1_6.index _ (0 : Fin 2) * 5000 + 5000
    rw [e60]; show (i 0).val / 5000 * 5000 ≤ (i 0).val ∧ (i 0).val < (i 0).val / 5000 * 5000 + 5000; omega
  | ⟨1, _⟩ =>
    show win1_6.index _ (1 : Fin 2) * 128 ≤ (i 1).val ∧ (i 1).val < win1_6.index _ (1 : Fin 2) * 128 + 128
    rw [e61]; omega

/-- THE OUTPUT ARRAY after the region: the layer on the arrays the region finds at its entry. -/
theorem final1 (c : Dev nD) :
    (dat1 V c).arrAt 6 cfg1.N
      = Cert.Layer.rows (n := 50000) (V c main_v14) (V c main_v24) (V c main_v25) (V c main_v26) (V c main_v27) (V c main_v28) :=
  (dat1 V c).arrAt_eq_of_cover 6 _ (fun t _ => flushed1_eq V c t) (cover1)

end Cert.KernelIdeal.Region

end
-- ==== Proof.HostPrep.lean ====
/-
  The arrays the host prepares for a kernel region, read at an index: the neighbour counts reshaped to a column, the
  bias reshaped to a row, and the two halves of the weight matrix cut out as slices. With them the layer on the
  prepared arrays is the layer `Cert.Layer.layer` on the arguments themselves.
-/
import proofs.«147471_j32341103738939_1_alg».proof.Proof.LayerSpec
import Idealize.ShloMosaic.Lib.Pipeline.Value
import Idealize.ShloMosaic.Lib.ValueIdx
import Idealize.ShloMosaic.Lib.ValueLayout

noncomputable section

namespace Cert.Layer

open Idealize.ShloMosaic Idealize.ShloMosaic.ValueIdx

/-- A vector of 50000 counts reshaped to a `[50000, 1]` column holds count `p` at `(p, 0)`. -/
theorem column_of_counts (nn : (⟨1, ![50000]⟩ : Shape).Idx → EReal)
    (hc : (⟨1, ![50000]⟩ : Shape).ShapeCasts ⟨2, ![50000, 1]⟩) :
    shapeCast (⟨2, ![50000, 1]⟩ : Shape) nn hc = fun i => nn (ix1 (i 0)) := by
  funext j
  -- position of (p, c) in the column is p * 1 + c with c < 1, which is position p of the vector
  refine shapeCast_apply nn hc j (ix1 (j 0)) ?_
  rw [Shape.rowMajor_val_one, Shape.rowMajor_val_two]
  have h1 : (j 1).val < 1 := idx2_lt1 j
  show (j 0).val = (j 0).val * 1 + (j 1).val
  omega

/-- A vector of 128 biases reshaped to a `[1, 128]` row holds bias `q` at `(0, q)`. -/
theorem row_of_bias (b : (⟨1, ![128]⟩ : Shape).Idx → EReal)
    (hc : (⟨1, ![128]⟩ : Shape).ShapeCasts ⟨2, ![1, 128]⟩) :
    shapeCast (⟨2, ![1, 128]⟩ : Shape) b hc = fun i => b (ix1 (i 1)) := by
  funext j
  -- position of (r, q) in the row is r * 128 + q with r < 1, which is position q of the vector
  refine shapeCast_apply b hc j (ix1 (j 1)) ?_
  rw [Shape.rowMajor_val_one, Shape.rowMajor_val_two]
  have h0 : (j 0).val < 1 := idx2_lt0 j
  show (j 1).val = (j 0).val * 128 + (j 1).val
  omega

/-- The slice `[0:128, 0:128]` of the `[256, 128]` weights is their first 128 rows. -/
theorem top_half (W : (⟨2, ![256, 128]⟩ : Shape).Idx → EReal)
    (hs : (⟨2, ![256, 128]⟩ : Shape).Slices ![0, 0] ⟨2, ![128, 128]⟩) :
    extractStridedSlice (⟨2, ![128, 128]⟩ : Shape) ![0, 0] W hs = fun i => W (ix2 (Fin.castAdd 128 (i 0)) (i 1)) := by
  funext j
  -- entry (p, q) of the slice is entry (0 + p, 0 + q) of the matrix, and p as a row of 256 is still p
  refine extractStridedSlice_apply ![0, 0] W hs j (ix2 (Fin.castAdd 128 (j 0)) (j 1)) ?_
  intro a
  match a with
  | ⟨0, _⟩ => show (j 0).val = 0 + (j 0).val; omega
  | ⟨1, _⟩ => show (j 1).val = 0 + (j 1).val; omega

/-- The slice `[128:256, 0:128]` of the `[256, 128]` weights is their last 128 rows. -/
theorem bottom_half (W : (⟨2, ![256, 128]⟩ : Shape).Idx → EReal)
    (hs : (⟨2, ![256, 128]⟩ : Shape).Slices ![128, 0] ⟨2, ![128, 128]⟩) :
    extractStridedSlice (⟨2, ![128, 128]⟩ : Shape) ![128, 0] W hs = fun i => W (ix2 (Fin.natAdd 128 (i 0)) (i 1)) := by
  funext j
  -- entry (p, q) of the slice is entry (128 + p, 0 + q) of the matrix
  refine extractStridedSlice_apply ![128, 0] W hs j (ix2 (Fin.natAdd 128 (j 0)) (j 1)) ?_
  intro a
  match a with
  | ⟨0, _⟩ => show 128 + (j 0).val = 128 + (j 0).val; rfl
  | ⟨1, _⟩ => show (j 1).val = 0 + (j 1).val; omega

/-- The layer on the host-prepared arrays is the layer on the arguments. -/
theorem rows_prepared (h ns : (⟨2, ![50000, 128]⟩ : Shape).Idx → EReal) (nn : (⟨1, ![50000]⟩ : Shape).Idx → EReal)
    (W : (⟨2, ![256, 128]⟩ : Shape).Idx → EReal) (b : (⟨1, ![128]⟩ : Shape).Idx → EReal)
    (hc : (⟨1, ![50000]⟩ : Shape).ShapeCasts ⟨2, ![50000, 1]⟩)
    (ht : (⟨2, ![256, 128]⟩ : Shape).Slices ![0, 0] ⟨2, ![128, 128]⟩)
    (hb : (⟨2, ![256, 128]⟩ : Shape).Slices ![128, 0] ⟨2, ![128, 128]⟩)
    (hr : (⟨1, ![128]⟩ : Shape).ShapeCasts ⟨2, ![1, 128]⟩) :
    rows (n := 50000) h ns (shapeCast (⟨2, ![50000, 1]⟩ : Shape) nn hc)
      (extractStridedSlice (⟨2, ![128, 128]⟩ : Shape) ![0, 0] W ht)
      (extractStridedSlice (⟨2, ![128, 128]⟩ : Shape) ![128, 0] W hb)
      (shapeCast (⟨2, ![1, 128]⟩ : Shape) b hr) = layer h ns nn W b := by
  unfold layer
  rw [column_of_counts, row_of_bias, top_half, bottom_half]

end Cert.Layer

end
-- ==== Proof.KernelValue.lean ====
/-
  The kernel program's result as two applications of one layer.

  @main is five stretches: host operations, the first kernel region, host operations, the second kernel region, and a
  final concatenation. The host operations before a region gather the rows of the current features at the source
  indices and add them into the rows named by the destination indices (`agg`, carried as one function and never
  opened), reshape the neighbour counts to a column and the bias to a row, and cut the weight matrix into its two
  halves; the region then leaves the layer `Cert.Layer.rows` of those arrays in its output. Read on the prepared
  arrays that is `Cert.Layer.layer` of the arguments. So the contents at the last boundary of the result buffer are
  the second layer (of the first layer's output and its aggregate) joined with the input features along the columns.
-/
import proofs.«147471_j32341103738939_1_alg».proof.Proof.Gen.KernelIdeal.Frame
import proofs.«147471_j32341103738939_1_alg».proof.Proof.KernelRegion
import proofs.«147471_j32341103738939_1_alg».proof.Proof.HostPrep
import Idealize.ShloMosaic.Lib.StableHlo.Run

set_option maxRecDepth 16384

noncomputable section

namespace Cert.KernelIdeal.ValueOf

open Cert.KernelIdeal Cert.KernelIdeal.Gen
open Idealize.ShloMosaic Idealize.ShloMosaic.TcCoe Idealize.ShloMosaic.StableHlo Idealize.SL.Sem
open Idealize.ShloMosaic.Pipeline (Dat Cfg Window)

/-- The neighbour aggregation: gather the rows of `h` at the source indices (a negative index wrapped by the row
    count first), scatter-add them into a zero array at the destination indices. -/
def agg (h : FVec Ideal S50000x128 .f32) (src dst : IVec S800000 32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

variable (m : (ℓ : Loc nD τ sig) → Buf (Elt Ideal) ℓ) (ρ : Dev nD → PrngReg)

/-- The first layer's output, of the arguments. -/
def out1 (c : Dev nD) : FVec Ideal S50000x128 .f32 :=
  Cert.Layer.layer (m ((c.tc : Thread nD τ).loc main_arg0)) (agg (m ((c.tc : Thread nD τ).loc main_arg0)) (m ((c.tc : Thread nD τ).loc main_arg1)) (m ((c.tc : Thread nD τ).loc main_arg2)))
    (m ((c.tc : Thread nD τ).loc main_arg3)) (m ((c.tc : Thread nD τ).loc main_arg4)) (m ((c.tc : Thread nD τ).loc main_arg5))

/-- The second layer's output: the layer on the first layer's output and its aggregate, with the second weights. -/
def out2 (c : Dev nD) : FVec Ideal S50000x128 .f32 :=
  Cert.Layer.layer (out1 m c) (agg (out1 m c) (m ((c.tc : Thread nD τ).loc main_arg1)) (m ((c.tc : Thread nD τ).loc main_arg2)))
    (m ((c.tc : Thread nD τ).loc main_arg3)) (m ((c.tc : Thread nD τ).loc main_arg6)) (m ((c.tc : Thread nD τ).loc main_arg7))

/-! ## Before the first region -/

theorem V1_arg0 (c : Dev nD) : V1 m ρ c main_arg0 = m ((c.tc : Thread nD τ).loc main_arg0) := by
  show StableHlo.after hostOps0 (W0 m ρ c) (Proc.devRef .tc main_arg0) = _
  dsimp only [hostOps0]; after_results <;> rfl
theorem W1_arg1 (c : Dev nD) : W1 m ρ c (Proc.devRef .tc main_arg1) = m ((c.tc : Thread nD τ).loc main_arg1) := by
  show StableHlo.after hostOps0 (W0 m ρ c) (Proc.devRef .tc main_arg1) = _
  dsimp only [hostOps0]; after_results <;> rfl
theorem W1_arg2 (c : Dev nD) : W1 m ρ c (Proc.devRef .tc main_arg2) = m ((c.tc : Thread nD τ).loc main_arg2) := by
  show StableHlo.after hostOps0 (W0 m ρ c) (Proc.devRef .tc main_arg2) = _
  dsimp only [hostOps0]; after_results <;> rfl
theorem W1_arg3 (c : Dev nD) : W1 m ρ c (Proc.devRef .tc main_arg3) = m ((c.tc : Thread nD τ).loc main_arg3) := by
  show StableHlo.after hostOps0 (W0 m ρ c) (Proc.devRef .tc main_arg3) = _
  dsimp only [hostOps0]; after_results <;> rfl
theorem W1_arg6 (c : Dev nD) : W1 m ρ c (Proc.devRef .tc main_arg6) = m ((c.tc : Thread nD τ).loc main_arg6) := by
  show StableHlo.after hostOps0 (W0 m ρ c) (Proc.devRef .tc main_arg6) = _
  dsimp only [hostOps0]; after_results <;> rfl
theorem W1_arg7 (c : Dev nD) : W1 m ρ c (Proc.devRef .tc main_arg7) = m ((c.tc : Thread nD τ).loc main_arg7) := by
  show StableHlo.after hostOps0 (W0 m ρ c) (Proc.devRef .tc main_arg7) = _
  dsimp only [hostOps0]; after_results <;> rfl

/-- The neighbour sums the first region reads are the aggregate of the input features. -/
theorem V1_v9 (c : Dev nD) : V1 m ρ c main_v9 = agg (m ((c.tc : Thread nD τ).loc main_arg0)) (m ((c.tc : Thread nD τ).loc main_arg1)) (m ((c.tc : Thread nD τ).loc main_arg2)) := by
  show StableHlo.after hostOps0 (W0 m ρ c) (Proc.devRef .tc main_v9) = _
  dsimp only [hostOps0]; after_results <;> rfl
theorem V1_v10 (c : Dev nD) : V1 m ρ c main_v10 = shapeCast S50000x1 (m ((c.tc : Thread nD τ).loc main_arg3)) shapeCasts_S50000_S50000x1 := by
  show StableHlo.after hostOps0 (W0 m ρ c) (Proc.devRef .tc main_v10) = _
  dsimp only [hostOps0]; after_results <;> rfl
theorem V1_v11 (c : Dev nD) : V1 m ρ c main_v11 = extractStridedSlice S128x128 ![0, 0] (m ((c.tc : Thread nD τ).loc main_arg4)) slices_S256x128_S128x128_0_0 := by
  show StableHlo.after hostOps0 (W0 m ρ c) (Proc.devRef .tc main_v11) = _
  dsimp only [hostOps0]; after_results <;> rfl
theorem V1_v12 (c : Dev nD) : V1 m ρ c main_v12 = extractStridedSlice S128x128 ![128, 0] (m ((c.tc : Thread nD τ).loc main_arg4)) slices_S256x128_S128x128_128_0 := by
  show StableHlo.after hostOps0 (W0 m ρ c) (Proc.devRef .tc main_v12) = _
  dsimp only [hostOps0]; after_results <;> rfl
theorem V1_v13 (c : Dev nD) : V1 m ρ c main_v13 = shapeCast S1x128 (m ((c.tc : Thread nD τ).loc main_arg5)) shapeCasts_S128_S1x128 := by
  show StableHlo.after hostOps0 (W0 m ρ c) (Proc.devRef .tc main_v13) = _
  dsimp only [hostOps0]; after_results <;> rfl

/-! ## After the first region -/

/-- The first region's output array is the first layer of the arguments. -/
theorem W2_v14 (c : Dev nD) : W2 m ρ c (Proc.devRef .tc main_v14) = out1 m c := by
  refine (W2_arr m ρ c 6).trans ?_
  rw [Region.final0 (V1 m ρ) c, V1_arg0, V1_v9, V1_v10, V1_v11, V1_v12, V1_v13]
  exact Cert.Layer.rows_prepared _ _ _ _ _ _ _ _ _

theorem W2_arg0 (c : Dev nD) : W2 m ρ c (Proc.devRef .tc main_arg0) = m ((c.tc : Thread nD τ).loc main_arg0) :=
  ((W2_arr m ρ c 0).trans (((dat0 (V1 m ρ) c).arrAt_in 0 rfl _).trans (A_eq0 (V1 m ρ) c 0))).trans (V1_arg0 m ρ c)
theorem W2_arg1 (c : Dev nD) : W2 m ρ c (Proc.devRef .tc main_arg1) = m ((c.tc : Thread nD τ).loc main_arg1) :=
  (W2_of_ne m ρ c main_arg1 (by decide)).trans (W1_arg1 m ρ c)
theorem W2_arg2 (c : Dev nD) : W2 m ρ c (Proc.devRef .tc main_arg2) = m ((c.tc : Thread nD τ).loc main_arg2) :=
  (W2_of_ne m ρ c main_arg2 (by decide)).trans (W1_arg2 m ρ c)
theorem W2_arg3 (c : Dev nD) : W2 m ρ c (Proc.devRef .tc main_arg3) = m ((c.tc : Thread nD τ).loc main_arg3) :=
  (W2_of_ne m ρ c main_arg3 (by decide)).trans (W1_arg3 m ρ c)
theorem W2_arg6 (c : Dev nD) : W2 m ρ c (Proc.devRef .tc main_arg6) = m ((c.tc : Thread nD τ).loc main_arg6) :=
  (W2_of_ne m ρ c main_arg6 (by decide)).trans (W1_arg6 m ρ c)
theorem W2_arg7 (c : Dev nD) : W2 m ρ c (Proc.devRef .tc main_arg7) = m ((c.tc : Thread nD τ).loc main_arg7) :=
  (W2_of_ne m ρ c main_arg7 (by decide)).trans (W1_arg7 m ρ c)

/-! ## Before the second region -/

theorem V3_v14 (c : Dev nD) : V3 m ρ c main_v14 = out1 m c := by
  refine Eq.trans ?_ (W2_v14 m ρ c)
  show StableHlo.after hostOps1 (W2 m ρ c) (Proc.devRef .tc main_v14) = _
  dsimp only [hostOps1]; after_results <;> rfl
theorem W3_arg0 (c : Dev nD) : W3 m ρ c (Proc.devRef .tc main_arg0) = m ((c.tc : Thread nD τ).loc main_arg0) := by
  refine Eq.trans ?_ (W2_arg0 m ρ c)
  show StableHlo.after hostOps1 (W2 m ρ c) (Proc.devRef .tc main_arg0) = _
  dsimp only [hostOps1]; after_results <;> rfl
/-- The neighbour sums the second region reads are the aggregate of the first layer's output. -/
theorem V3_v24 (c : Dev nD) : V3 m ρ c main_v24 = agg (out1 m c) (m ((c.tc : Thread nD τ).loc main_arg1)) (m ((c.tc : Thread nD τ).loc main_arg2)) := by
  rw [← W2_v14 m ρ c, ← W2_arg1 m ρ c, ← W2_arg2 m ρ c]
  show StableHlo.after hostOps1 (W2 m ρ c) (Proc.devRef .tc main_v24) = _
  dsimp only [hostOps1]; after_results <;> rfl
theorem V3_v25 (c : Dev nD) : V3 m ρ c main_v25 = shapeCast S50000x1 (m ((c.tc : Thread nD τ).loc main_arg3)) shapeCasts_S50000_S50000x1 := by
  rw [← W2_arg3 m ρ c]
  show StableHlo.after hostOps1 (W2 m ρ c) (Proc.devRef .tc main_v25) = _
  dsimp only [hostOps1]; after_results <;> rfl
theorem V3_v26 (c : Dev nD) : V3 m ρ c main_v26 = extractStridedSlice S128x128 ![0, 0] (m ((c.tc : Thread nD τ).loc main_arg6)) slices_S256x128_S128x128_0_0 := by
  rw [← W2_arg6 m ρ c]
  show StableHlo.after hostOps1 (W2 m ρ c) (Proc.devRef .tc main_v26) = _
  dsimp only [hostOps1]; after_results <;> rfl
theorem V3_v27 (c : Dev nD) : V3 m ρ c main_v27 = extractStridedSlice S128x128 ![128, 0] (m ((c.tc : Thread nD τ).loc main_arg6)) slices_S256x128_S128x128_128_0 := by
  rw [← W2_arg6 m ρ c]
  show StableHlo.after hostOps1 (W2 m ρ c) (Proc.devRef .tc main_v27) = _
  dsimp only [hostOps1]; after_results <;> rfl
theorem V3_v28 (c : Dev nD) : V3 m ρ c main_v28 = shapeCast S1x128 (m ((c.tc : Thread nD τ).loc main_arg7)) shapeCasts_S128_S1x128 := by
  rw [← W2_arg7 m ρ c]
  show StableHlo.after hostOps1 (W2 m ρ c) (Proc.devRef .tc main_v28) = _
  dsimp only [hostOps1]; after_results <;> rfl

/-! ## After the second region, and the result -/

/-- The second region's output array is the second layer. -/
theorem W4_v29 (c : Dev nD) : W4 m ρ c (Proc.devRef .tc main_v29) = out2 m c := by
  refine (W4_arr m ρ c 6).trans ?_
  rw [Region.final1 (V3 m ρ) c, V3_v14, V3_v24, V3_v25, V3_v26, V3_v27, V3_v28]
  exact Cert.Layer.rows_prepared _ _ _ _ _ _ _ _ _

theorem W4_arg0 (c : Dev nD) : W4 m ρ c (Proc.devRef .tc main_arg0) = m ((c.tc : Thread nD τ).loc main_arg0) :=
  (W4_of_ne m ρ c main_arg0 (by decide)).trans (W3_arg0 m ρ c)

/-- THE RESULT at the last boundary: the second layer's output joined with the input features along the columns. -/
theorem W5_result (c : Dev nD) :
    W5 m ρ c (Proc.devRef .tc main_v30)
      = concatenate S50000x256 1 [⟨S50000x128, out2 m c⟩, ⟨S50000x128, m ((c.tc : Thread nD τ).loc main_arg0)⟩]
          concatenates_S50000x128_S50000x128_S50000x256_d1 := by
  rw [← W4_v29 m ρ c, ← W4_arg0 m ρ c]
  show StableHlo.after hostOps2 (W4 m ρ c) (Proc.devRef .tc main_v30) = _
  dsimp only [hostOps2]; after_results <;> rfl

end Cert.KernelIdeal.ValueOf

end
-- ==== Proof.RefLayer.lean ====
/-
  The reference program's layer, and the neighbour aggregation it is applied to.

  `agg h src dst` is the neighbour aggregation both programs compute on the host: the rows of `h` gathered at the
  (wrapped) source indices and added into the rows named by the destination indices. It is carried as one function
  and never opened. `refLayer` is the reference's layer as its host operations spell it: the concatenation
  `[h, agg / (nn + ε)]` times the whole `[256, 128]` weight matrix, plus the bias, clipped below at zero. Entry by
  entry it is `Cert.Layer.layer`: the concatenation's first 128 columns are `h`'s and its last 128 the normalised
  aggregate's, so the product's sum over 256 splits into the two sums over 128.
-/
import proofs.«147471_j32341103738939_1_alg».proof.Proof.Gen.ReferenceIdeal
import proofs.«147471_j32341103738939_1_alg».proof.Proof.LayerSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Layer

open Cert.ReferenceIdeal Cert.ReferenceIdeal.Gen Idealize.ShloMosaic Idealize.ShloMosaic.TcCoe Idealize.SL.Sem
open Idealize.ShloMosaic.ValueIdx

/-- The neighbour aggregation: gather the rows of `h` at the source indices (a negative index wrapped by the row
    count first), scatter-add them into a zero array at the destination indices. -/
def agg (h : FVec Ideal S50000x128 .f32) (src dst : IVec S800000 32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The reference's layer, as its host operations spell it. -/
def refLayer (h ns : FVec Ideal S50000x128 .f32) (nn : FVec Ideal S50000 .f32) (W : FVec Ideal S256x128 .f32)
    (b : FVec Ideal S128 .f32) : FVec Ideal S50000x128 .f32 :=
  maximumf
    (addf
      (Host.dotGeneral dot_S50000x256_S256x128_S50000x128_1_0_0_1_n_n none
        (concatenate S50000x256 1
          [⟨S50000x128, h⟩,
           ⟨S50000x128, Host.divf ns
              (broadcastInDim S50000x128 ![0, 1] bcast_S50000x1_S50000x128_0_1
                (addf (broadcastInDim S50000x1 ![0] bcast_S50000_S50000x1_0 nn)
                  (broadcastInDim S50000x1 ![] bcast_S_S50000x1 (constant S_ .f32 0x33D6BF95#32))))⟩]
          concatenates_S50000x128_S50000x128_S50000x256_d1)
        W)
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-! ## The operations of the layer read at an entry -/

/-- The left operand's index for output entry i and contracted position c keeps i's row: axis 0 of the left
    array is neither a batch axis nor contracted, and it is the first such axis. -/
private theorem lhsIdx_row (i : S50000x128.Idx) (c : dot_S50000x256_S256x128_S50000x128_1_0_0_1_n_n.contr.Idx) : (dot_S50000x256_S256x128_S50000x128_1_0_0_1_n_n.lhsIdx i c 0).val = (i 0).val := by
  unfold DotDims.lhsIdx
  rw [dif_neg (show ¬(0 : Fin S50000x256.rank) ∈ dot_S50000x256_S256x128_S50000x128_1_0_0_1_n_n.lhsBatch by decide),
    dif_pos (show (0 : Fin S50000x256.rank) ∈ dot_S50000x256_S256x128_S50000x128_1_0_0_1_n_n.lhsNonContracting by decide)]
  rfl

/-- Its column is the contracted position: axis 1 of the left array is the one contracted axis. -/
private theorem lhsIdx_col (i : S50000x128.Idx) (c : dot_S50000x256_S256x128_S50000x128_1_0_0_1_n_n.contr.Idx) : (dot_S50000x256_S256x128_S50000x128_1_0_0_1_n_n.lhsIdx i c 1).val = (c ⟨0, by decide⟩).val :=
  dot_S50000x256_S256x128_S50000x128_1_0_0_1_n_n.lhsIdx_val_of_single rfl i c

/-- The right operand's row is the contracted position: axis 0 of the right array is the one contracted axis. -/
private theorem rhsIdx_row (i : S50000x128.Idx) (c : dot_S50000x256_S256x128_S50000x128_1_0_0_1_n_n.contr.Idx) : (dot_S50000x256_S256x128_S50000x128_1_0_0_1_n_n.rhsIdx i c 0).val = (c ⟨0, by decide⟩).val :=
  dot_S50000x256_S256x128_S50000x128_1_0_0_1_n_n.rhsIdx_val_of_single rfl i c

/-- Its column is i's column: axis 1 of the right array is neither a batch axis nor contracted. -/
private theorem rhsIdx_col (i : S50000x128.Idx) (c : dot_S50000x256_S256x128_S50000x128_1_0_0_1_n_n.contr.Idx) : (dot_S50000x256_S256x128_S50000x128_1_0_0_1_n_n.rhsIdx i c 1).val = (i 1).val := by
  unfold DotDims.rhsIdx
  rw [dif_neg (show ¬(1 : Fin S256x128.rank) ∈ dot_S50000x256_S256x128_S50000x128_1_0_0_1_n_n.rhsBatch by decide),
    dif_pos (show (1 : Fin S256x128.rank) ∈ dot_S50000x256_S256x128_S50000x128_1_0_0_1_n_n.rhsNonContracting by decide)]
  rfl

/-- A sum of products over the 256 contracted positions: the product of a [50000, 256] array with a [256, 128]
    array at entry (p, q) is the sum over k of the left array at (p, k) times the right array at (k, q). -/
private theorem dot_apply (X : FVec Ideal S50000x256 .f32) (W : FVec Ideal S256x128 .f32) (p : Fin 50000) (q : Fin 128) :
    Host.dotGeneral dot_S50000x256_S256x128_S50000x128_1_0_0_1_n_n none X W (ix2 p q)
      = ∑ k : Fin 256, X (ix2 p k) * W (ix2 k q) := by
  simp only [Host.dotGeneral]
  rw [Ideal.dotGeneral_apply,
    ← Equiv.sum_comp (contrEquiv1 dot_S50000x256_S256x128_S50000x128_1_0_0_1_n_n 256 rfl rfl).symm]
  refine Finset.sum_congr rfl fun k _ => ?_
  have hk := contrEquiv1_symm_val dot_S50000x256_S256x128_S50000x128_1_0_0_1_n_n 256 rfl rfl k
  have el : dot_S50000x256_S256x128_S50000x128_1_0_0_1_n_n.lhsIdx (ix2 p q)
      ((contrEquiv1 dot_S50000x256_S256x128_S50000x128_1_0_0_1_n_n 256 rfl rfl).symm k) = ix2 p k :=
    funext fun a => Fin.ext (by
      match a with
      | ⟨0, _⟩ => exact lhsIdx_row _ _
      | ⟨1, _⟩ => exact (lhsIdx_col _ _).trans hk)
  have er : dot_S50000x256_S256x128_S50000x128_1_0_0_1_n_n.rhsIdx (ix2 p q)
      ((contrEquiv1 dot_S50000x256_S256x128_S50000x128_1_0_0_1_n_n 256 rfl rfl).symm k) = ix2 k q :=
    funext fun a => Fin.ext (by
      match a with
      | ⟨0, _⟩ => exact (rhsIdx_row _ _).trans hk
      | ⟨1, _⟩ => exact rhsIdx_col _ _)
  rw [el, er]

/-- In its first 128 columns the joined array is its first piece. -/
private theorem concat_left (a b : FVec Ideal S50000x128 .f32) (p : Fin 50000) (k : Fin 128) :
    concatenate S50000x256 1 [⟨S50000x128, a⟩, ⟨S50000x128, b⟩] concatenates_S50000x128_S50000x128_S50000x256_d1
      (ix2 p (Fin.castAdd 128 k)) = a (ix2 p k) :=
  concatenate_pair_apply_left 1 a b concatenates_S50000x128_S50000x128_S50000x256_d1 (ix2 p (Fin.castAdd 128 k)) rfl
    (ix2 p k) (fun c => match c with
      | ⟨0, _⟩ => rfl
      | ⟨1, _⟩ => rfl)

/-- In its last 128 columns the joined array is its second piece, the column index 128 less. -/
private theorem concat_right (a b : FVec Ideal S50000x128 .f32) (p : Fin 50000) (k : Fin 128) :
    concatenate S50000x256 1 [⟨S50000x128, a⟩, ⟨S50000x128, b⟩] concatenates_S50000x128_S50000x128_S50000x256_d1
      (ix2 p (Fin.natAdd 128 k)) = b (ix2 p k) :=
  concatenate_pair_apply_right 1 a b concatenates_S50000x128_S50000x128_S50000x256_d1 (ix2 p (Fin.natAdd 128 k)) rfl rfl
    (ix2 p k) (fun c hc => match c, hc with
      | ⟨0, _⟩, _ => rfl
      | ⟨1, _⟩, hc => absurd rfl hc)
    (by show k.val + 128 = 128 + k.val; omega)

/-- The bias vector, spread over the rows, reads its column's entry. -/
private theorem bias_apply (b : FVec Ideal S128 .f32) (p : Fin 50000) (q : Fin 128) :
    broadcastInDim S50000x128 ![0, 1] bcast_S1x128_S50000x128_0_1 (broadcastInDim S1x128 ![1] bcast_S128_S1x128_1 b)
      (ix2 p q) = b (ix1 q) := by
  refine (broadcastInDim_apply _ bcast_S1x128_S50000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- The zero constant, spread over the whole array, is the extended real zero at every entry. -/
private theorem zero_apply (i : S50000x128.Idx) :
    broadcastInDim S50000x128 ![] bcast_S_S50000x128 (constant (F := Ideal) S_ .f32 0x00000000#32) i = 0 := by
  refine (broadcastInDim_apply _ bcast_S_S50000x128 _ i ix0 (fun a => a.elim0)).trans ?_
  rw [constant_apply, Ideal.ofBits_zero_f32]

/-- The divisor: the neighbour count of the row plus the small constant, the same along the row. -/
private theorem denom_apply (nn : FVec Ideal S50000 .f32) (p : Fin 50000) (k : Fin 128) :
    broadcastInDim S50000x128 ![0, 1] bcast_S50000x1_S50000x128_0_1
      (addf (broadcastInDim S50000x1 ![0] bcast_S50000_S50000x1_0 nn)
        (broadcastInDim S50000x1 ![] bcast_S_S50000x1 (constant (F := Ideal) S_ .f32 0x33D6BF95#32))) (ix2 p k)
      = nn (ix1 p) + Cert.Layer.eps := by
  refine (broadcastInDim_apply _ bcast_S50000x1_S50000x128_0_1 _ (ix2 p k) (ix2 p (0 : Fin 1)) (fun a => match a with
    | ⟨0, _⟩ => by show p.val = if (50000 : Nat) = 1 then 0 else p.val; rw [if_neg (by decide)]
    | ⟨1, _⟩ => by show 0 = if (1 : Nat) = 1 then 0 else k.val; rw [if_pos rfl])).trans ?_
  have e1 : broadcastInDim S50000x1 ![0] bcast_S50000_S50000x1_0 nn (ix2 p (0 : Fin 1)) = nn (ix1 p) :=
    broadcastInDim_apply _ bcast_S50000_S50000x1_0 nn (ix2 p (0 : Fin 1)) (ix1 p) (fun a => match a with
      | ⟨0, _⟩ => by show p.val = if (50000 : Nat) = 1 then 0 else p.val; rw [if_neg (by decide)])
  have e2 : broadcastInDim S50000x1 ![] bcast_S_S50000x1 (constant (F := Ideal) S_ .f32 0x33D6BF95#32) (ix2 p (0 : Fin 1))
      = Cert.Layer.eps :=
    (broadcastInDim_apply _ bcast_S_S50000x1 _ (ix2 p (0 : Fin 1)) ix0 (fun a => a.elim0)).trans (constant_apply _ _)
  rw [addf_apply, e1, e2]

/-- Entry by entry the reference's layer is the layer of the specification. -/
theorem refLayer_eq (h ns : FVec Ideal S50000x128 .f32) (nn : FVec Ideal S50000 .f32) (W : FVec Ideal S256x128 .f32)
    (b : FVec Ideal S128 .f32) : refLayer h ns nn W b = Cert.Layer.layer h ns nn W b := by
  funext i
  obtain ⟨p, q, rfl⟩ : ∃ (p : Fin 50000) (q : Fin 128), i = ix2 p q := ⟨i 0, i 1, eq_ix2 i⟩
  show refLayer h ns nn W b (ix2 p q)
      = max (((∑ k : Fin 128, h (ix2 p k) * W (ix2 (Fin.castAdd 128 k) q))
          + ∑ k : Fin 128, Ideal.div (ns (ix2 p k)) (nn (ix1 p) + Cert.Layer.eps) * W (ix2 (Fin.natAdd 128 k) q))
        + b (ix1 q)) 0
  unfold refLayer
  rw [maximumf_apply, addf_apply, zero_apply, bias_apply, dot_apply, Cert.Layer.sum_256_split]
  congr 3
  · refine Finset.sum_congr rfl fun k _ => ?_
    rw [concat_left]
  · refine Finset.sum_congr rfl fun k _ => ?_
    rw [concat_right]
    show Ideal.div (ns (ix2 p k)) _ * _ = _
    rw [denom_apply]

end Cert.ReferenceIdeal.Layer

end
-- ==== Proof.RefRun.lean ====
/-
  The reference program's run, read stretch by stretch.

  @main is a straight line of 55 host operations: 27 for the first layer (through `main_v20`), 27 for the second
  (through `main_v41`) and the closing concatenation. What a buffer holds after a stretch is stated for ANY contents
  `V` the stretch starts from, so the stretch before stays folded: after the first stretch `main_v20` holds
  `refLayer` of the arguments and of their aggregate, after the second `main_v41` holds `refLayer` of `main_v20`, of its
  aggregate and of the second weights, and the last operation joins `main_v41` with the input features. No stretch
  writes an argument. With `refLayer_eq` the result is the specification's second layer joined with the input.
-/
import proofs.«147471_j32341103738939_1_alg».proof.Proof.RefOps
import proofs.«147471_j32341103738939_1_alg».proof.Proof.RefLayer
import Idealize.ShloMosaic.Lib.StableHlo.Run
import Idealize.ShloMosaic.Lib.Pipeline.Frame

set_option maxRecDepth 16384

noncomputable section

namespace Cert.ReferenceIdeal.Layer

open Cert.ReferenceIdeal Cert.ReferenceIdeal.Gen Cert.ReferenceIdeal.RunP
open Idealize.ShloMosaic Idealize.ShloMosaic.TcCoe Idealize.ShloMosaic.StableHlo Idealize.SL.Sem

/-! ## The first stretch -/

set_option maxHeartbeats 4000000 in
/-- After the first layer's operations `main_v20` holds the layer of the arguments and of their aggregate. -/
theorem stageA_v20 (V : Valuation τ sig (Elt Ideal)) :
    after (opsA (F := Ideal)) V (Proc.devRef .tc main_v20)
      = refLayer (V (Proc.devRef .tc main_arg0)) (agg (V (Proc.devRef .tc main_arg0)) (V (Proc.devRef .tc main_arg1)) (V (Proc.devRef .tc main_arg2)))
          (V (Proc.devRef .tc main_arg3)) (V (Proc.devRef .tc main_arg4)) (V (Proc.devRef .tc main_arg5)) := by
  unfold refLayer agg
  dsimp only [opsA, TRef.binary, TRef.unary, TRef.nullary, TRef.of, TRef.toBuf, TRef.ofBuf]
  simp only [cast_eq]
  after_results <;> rfl
theorem stageA_arg0 (V : Valuation τ sig (Elt Ideal)) :
    after (opsA (F := Ideal)) V (Proc.devRef .tc main_arg0) = V (Proc.devRef .tc main_arg0) := by
  dsimp only [opsA]; after_results <;> rfl
theorem stageA_arg1 (V : Valuation τ sig (Elt Ideal)) :
    after (opsA (F := Ideal)) V (Proc.devRef .tc main_arg1) = V (Proc.devRef .tc main_arg1) := by
  dsimp only [opsA]; after_results <;> rfl
theorem stageA_arg2 (V : Valuation τ sig (Elt Ideal)) :
    after (opsA (F := Ideal)) V (Proc.devRef .tc main_arg2) = V (Proc.devRef .tc main_arg2) := by
  dsimp only [opsA]; after_results <;> rfl
theorem stageA_arg3 (V : Valuation τ sig (Elt Ideal)) :
    after (opsA (F := Ideal)) V (Proc.devRef .tc main_arg3) = V (Proc.devRef .tc main_arg3) := by
  dsimp only [opsA]; after_results <;> rfl
theorem stageA_arg6 (V : Valuation τ sig (Elt Ideal)) :
    after (opsA (F := Ideal)) V (Proc.devRef .tc main_arg6) = V (Proc.devRef .tc main_arg6) := by
  dsimp only [opsA]; after_results <;> rfl
theorem stageA_arg7 (V : Valuation τ sig (Elt Ideal)) :
    after (opsA (F := Ideal)) V (Proc.devRef .tc main_arg7) = V (Proc.devRef .tc main_arg7) := by
  dsimp only [opsA]; after_results <;> rfl

/-! ## The second stretch -/

set_option maxHeartbeats 4000000 in
/-- After the second layer's operations `main_v41` holds the layer of `main_v20`, of its aggregate and of the second
    weights and bias. -/
theorem stageB_v41 (V : Valuation τ sig (Elt Ideal)) :
    after (opsB (F := Ideal)) V (Proc.devRef .tc main_v41)
      = refLayer (V (Proc.devRef .tc main_v20)) (agg (V (Proc.devRef .tc main_v20)) (V (Proc.devRef .tc main_arg1)) (V (Proc.devRef .tc main_arg2)))
          (V (Proc.devRef .tc main_arg3)) (V (Proc.devRef .tc main_arg6)) (V (Proc.devRef .tc main_arg7)) := by
  unfold refLayer agg
  dsimp only [opsB, TRef.binary, TRef.unary, TRef.nullary, TRef.of, TRef.toBuf, TRef.ofBuf]
  simp only [cast_eq]
  after_results <;> rfl
theorem stageB_arg0 (V : Valuation τ sig (Elt Ideal)) :
    after (opsB (F := Ideal)) V (Proc.devRef .tc main_arg0) = V (Proc.devRef .tc main_arg0) := by
  dsimp only [opsB]; after_results <;> rfl

/-! ## The closing concatenation, and the whole line -/

theorem stageC_v42 (V : Valuation τ sig (Elt Ideal)) :
    after (opsC (F := Ideal)) V (Proc.devRef .tc main_v42)
      = concatenate S50000x256 1 [⟨S50000x128, V (Proc.devRef .tc main_v41)⟩, ⟨S50000x128, V (Proc.devRef .tc main_arg0)⟩]
          concatenates_S50000x128_S50000x128_S50000x256_d1 := by
  dsimp only [opsC]; after_results <;> rfl

/-- The first layer's output, of the contents the line starts from. -/
def first (V : Valuation τ sig (Elt Ideal)) : FVec Ideal S50000x128 .f32 :=
  Cert.Layer.layer (V (Proc.devRef .tc main_arg0)) (agg (V (Proc.devRef .tc main_arg0)) (V (Proc.devRef .tc main_arg1)) (V (Proc.devRef .tc main_arg2)))
    (V (Proc.devRef .tc main_arg3)) (V (Proc.devRef .tc main_arg4)) (V (Proc.devRef .tc main_arg5))

/-- The second layer's output. -/
def second (V : Valuation τ sig (Elt Ideal)) : FVec Ideal S50000x128 .f32 :=
  Cert.Layer.layer (first V) (agg (first V) (V (Proc.devRef .tc main_arg1)) (V (Proc.devRef .tc main_arg2)))
    (V (Proc.devRef .tc main_arg3)) (V (Proc.devRef .tc main_arg6)) (V (Proc.devRef .tc main_arg7))

/-- What the result buffer holds after the whole line, from any contents: the second layer joined with the input. -/
theorem line_result (V : Valuation τ sig (Elt Ideal)) :
    after (ops (F := Ideal)) V (Proc.devRef .tc main_v42)
      = concatenate S50000x256 1 [⟨S50000x128, second V⟩, ⟨S50000x128, V (Proc.devRef .tc main_arg0)⟩]
          concatenates_S50000x128_S50000x128_S50000x256_d1 := by
  rw [ops_split, after_append, after_append, stageC_v42, stageB_v41, stageB_arg0, stageA_v20,
    stageA_arg0, stageA_arg1, stageA_arg2, stageA_arg3, stageA_arg6, stageA_arg7, refLayer_eq, refLayer_eq]
  rfl

/-! ## No stretch writes an argument -/

theorem stageA_arg4 (V : Valuation τ sig (Elt Ideal)) :
    after (opsA (F := Ideal)) V (Proc.devRef .tc main_arg4) = V (Proc.devRef .tc main_arg4) := by
  dsimp only [opsA]; after_results <;> rfl
theorem stageA_arg5 (V : Valuation τ sig (Elt Ideal)) :
    after (opsA (F := Ideal)) V (Proc.devRef .tc main_arg5) = V (Proc.devRef .tc main_arg5) := by
  dsimp only [opsA]; after_results <;> rfl
theorem stageB_arg1 (V : Valuation τ sig (Elt Ideal)) :
    after (opsB (F := Ideal)) V (Proc.devRef .tc main_arg1) = V (Proc.devRef .tc main_arg1) := by
  dsimp only [opsB]; after_results <;> rfl
theorem stageB_arg2 (V : Valuation τ sig (Elt Ideal)) :
    after (opsB (F := Ideal)) V (Proc.devRef .tc main_arg2) = V (Proc.devRef .tc main_arg2) := by
  dsimp only [opsB]; after_results <;> rfl
theorem stageB_arg3 (V : Valuation τ sig (Elt Ideal)) :
    after (opsB (F := Ideal)) V (Proc.devRef .tc main_arg3) = V (Proc.devRef .tc main_arg3) := by
  dsimp only [opsB]; after_results <;> rfl
theorem stageB_arg4 (V : Valuation τ sig (Elt Ideal)) :
    after (opsB (F := Ideal)) V (Proc.devRef .tc main_arg4) = V (Proc.devRef .tc main_arg4) := by
  dsimp only [opsB]; after_results <;> rfl
theorem stageB_arg5 (V : Valuation τ sig (Elt Ideal)) :
    after (opsB (F := Ideal)) V (Proc.devRef .tc main_arg5) = V (Proc.devRef .tc main_arg5) := by
  dsimp only [opsB]; after_results <;> rfl
theorem stageB_arg6 (V : Valuation τ sig (Elt Ideal)) :
    after (opsB (F := Ideal)) V (Proc.devRef .tc main_arg6) = V (Proc.devRef .tc main_arg6) := by
  dsimp only [opsB]; after_results <;> rfl
theorem stageB_arg7 (V : Valuation τ sig (Elt Ideal)) :
    after (opsB (F := Ideal)) V (Proc.devRef .tc main_arg7) = V (Proc.devRef .tc main_arg7) := by
  dsimp only [opsB]; after_results <;> rfl
theorem stageC_arg0 (V : Valuation τ sig (Elt Ideal)) :
    after (opsC (F := Ideal)) V (Proc.devRef .tc main_arg0) = V (Proc.devRef .tc main_arg0) := by
  dsimp only [opsC]; after_results <;> rfl
theorem stageC_arg1 (V : Valuation τ sig (Elt Ideal)) :
    after (opsC (F := Ideal)) V (Proc.devRef .tc main_arg1) = V (Proc.devRef .tc main_arg1) := by
  dsimp only [opsC]; after_results <;> rfl
theorem stageC_arg2 (V : Valuation τ sig (Elt Ideal)) :
    after (opsC (F := Ideal)) V (Proc.devRef .tc main_arg2) = V (Proc.devRef .tc main_arg2) := by
  dsimp only [opsC]; after_results <;> rfl
theorem stageC_arg3 (V : Valuation τ sig (Elt Ideal)) :
    after (opsC (F := Ideal)) V (Proc.devRef .tc main_arg3) = V (Proc.devRef .tc main_arg3) := by
  dsimp only [opsC]; after_results <;> rfl
theorem stageC_arg4 (V : Valuation τ sig (Elt Ideal)) :
    after (opsC (F := Ideal)) V (Proc.devRef .tc main_arg4) = V (Proc.devRef .tc main_arg4) := by
  dsimp only [opsC]; after_results <;> rfl
theorem stageC_arg5 (V : Valuation τ sig (Elt Ideal)) :
    after (opsC (F := Ideal)) V (Proc.devRef .tc main_arg5) = V (Proc.devRef .tc main_arg5) := by
  dsimp only [opsC]; after_results <;> rfl
theorem stageC_arg6 (V : Valuation τ sig (Elt Ideal)) :
    after (opsC (F := Ideal)) V (Proc.devRef .tc main_arg6) = V (Proc.devRef .tc main_arg6) := by
  dsimp only [opsC]; after_results <;> rfl
theorem stageC_arg7 (V : Valuation τ sig (Elt Ideal)) :
    after (opsC (F := Ideal)) V (Proc.devRef .tc main_arg7) = V (Proc.devRef .tc main_arg7) := by
  dsimp only [opsC]; after_results <;> rfl
theorem line_arg0 (V : Valuation τ sig (Elt Ideal)) :
    after (ops (F := Ideal)) V (Proc.devRef .tc main_arg0) = V (Proc.devRef .tc main_arg0) := by
  rw [ops_split, after_append, after_append, stageC_arg0, stageB_arg0, stageA_arg0]
theorem line_arg1 (V : Valuation τ sig (Elt Ideal)) :
    after (ops (F := Ideal)) V (Proc.devRef .tc main_arg1) = V (Proc.devRef .tc main_arg1) := by
  rw [ops_split, after_append, after_append, stageC_arg1, stageB_arg1, stageA_arg1]
theorem line_arg2 (V : Valuation τ sig (Elt Ideal)) :
    after (ops (F := Ideal)) V (Proc.devRef .tc main_arg2) = V (Proc.devRef .tc main_arg2) := by
  rw [ops_split, after_append, after_append, stageC_arg2, stageB_arg2, stageA_arg2]
theorem line_arg3 (V : Valuation τ sig (Elt Ideal)) :
    after (ops (F := Ideal)) V (Proc.devRef .tc main_arg3) = V (Proc.devRef .tc main_arg3) := by
  rw [ops_split, after_append, after_append, stageC_arg3, stageB_arg3, stageA_arg3]
theorem line_arg4 (V : Valuation τ sig (Elt Ideal)) :
    after (ops (F := Ideal)) V (Proc.devRef .tc main_arg4) = V (Proc.devRef .tc main_arg4) := by
  rw [ops_split, after_append, after_append, stageC_arg4, stageB_arg4, stageA_arg4]
theorem line_arg5 (V : Valuation τ sig (Elt Ideal)) :
    after (ops (F := Ideal)) V (Proc.devRef .tc main_arg5) = V (Proc.devRef .tc main_arg5) := by
  rw [ops_split, after_append, after_append, stageC_arg5, stageB_arg5, stageA_arg5]
theorem line_arg6 (V : Valuation τ sig (Elt Ideal)) :
    after (ops (F := Ideal)) V (Proc.devRef .tc main_arg6) = V (Proc.devRef .tc main_arg6) := by
  rw [ops_split, after_append, after_append, stageC_arg6, stageB_arg6, stageA_arg6]
theorem line_arg7 (V : Valuation τ sig (Elt Ideal)) :
    after (ops (F := Ideal)) V (Proc.devRef .tc main_arg7) = V (Proc.devRef .tc main_arg7) := by
  rw [ops_split, after_append, after_append, stageC_arg7, stageB_arg7, stageA_arg7]

/-! ## The run -/

/-- The first layer's output, of the reference's arguments at launch. -/
def out1 (m : (ℓ : Loc nD τ sig) → Buf (Elt Ideal) ℓ) (c : Dev nD) : FVec Ideal S50000x128 .f32 :=
  Cert.Layer.layer (m ((c.tc : Thread nD τ).loc main_arg0)) (agg (m ((c.tc : Thread nD τ).loc main_arg0)) (m ((c.tc : Thread nD τ).loc main_arg1)) (m ((c.tc : Thread nD τ).loc main_arg2)))
    (m ((c.tc : Thread nD τ).loc main_arg3)) (m ((c.tc : Thread nD τ).loc main_arg4)) (m ((c.tc : Thread nD τ).loc main_arg5))

/-- The second layer's output. -/
def out2 (m : (ℓ : Loc nD τ sig) → Buf (Elt Ideal) ℓ) (c : Dev nD) : FVec Ideal S50000x128 .f32 :=
  Cert.Layer.layer (out1 m c) (agg (out1 m c) (m ((c.tc : Thread nD τ).loc main_arg1)) (m ((c.tc : Thread nD τ).loc main_arg2)))
    (m ((c.tc : Thread nD τ).loc main_arg3)) (m ((c.tc : Thread nD τ).loc main_arg6)) (m ((c.tc : Thread nD τ).loc main_arg7))

theorem second_launch (m : (ℓ : Loc nD τ sig) → Buf (Elt Ideal) ℓ) (c : Dev nD) :
    second (launchContents m c) = out2 m c := rfl

/-- THE REFERENCE'S RUN: on every device, from any memory with zero counters, every weakly fair execution of @main
    terminates with the result at the second layer's output joined with the input features, and the arguments
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42)
          = concatenate S50000x256 1 [⟨S50000x128, out2 m c⟩, ⟨S50000x128, m ((c.tc : Thread nD τ).loc main_arg0)⟩]
              concatenates_S50000x128_S50000x128_S50000x256_d1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v42).trans ((line_result _).trans (by rw [second_launch])),
      (h c main_arg0).trans (line_arg0 _),
      (h c main_arg1).trans (line_arg1 _),
      (h c main_arg2).trans (line_arg2 _),
      (h c main_arg3).trans (line_arg3 _),
      (h c main_arg4).trans (line_arg4 _),
      (h c main_arg5).trans (line_arg5 _),
      (h c main_arg6).trans (line_arg6 _),
      (h c main_arg7).trans (line_arg7 _)⟩)
    (run_seq scopedRefs_eq scopedSems_eq defs main (fun _ => ops) main_eq (fun _ => ops_sub) m ρ)

end Cert.ReferenceIdeal.Layer

end
-- ==== Proof.lean ====
/-
  The certificate of a two-layer graph convolution.

  Each layer aggregates, for every destination node, the feature rows of its source nodes (a gather followed by a
  scatter-add, done on the host by both programs in the same way), divides the sums by the neighbour count plus a
  small constant, and applies a linear map to the concatenation `[h, mean]`, a bias and a clip at zero. The reference
  multiplies the concatenation by the whole `[256, 128]` weight matrix; the kernel multiplies `h` by the top half and
  the mean by the bottom half and adds the two products, on ten blocks of 5000 rows. On the extended reals the two are
  the same number entry by entry: the sum over the 256 rows of the weights splits into the sums over its two halves
  (only commutativity and associativity of addition are used, so the precondition is never opened), the changes of
  float format are the identity, and a matrix product into a zero accumulator is the plain sum. Both programs end by
  joining the second layer's output with the input features along the columns.

  The three frames are the generated ones (the reference's is its run with the result dropped); the idealization
  rewrote nothing, so `preserves` is trivial.
-/
import proofs.«147471_j32341103738939_1_alg».proof.Defs
import proofs.«147471_j32341103738939_1_alg».proof.Proof.Gen.Kernel
import proofs.«147471_j32341103738939_1_alg».proof.Proof.Gen.Kernel.Skeleton
import proofs.«147471_j32341103738939_1_alg».proof.Proof.Gen.Kernel.Launch
import proofs.«147471_j32341103738939_1_alg».proof.Proof.Gen.Kernel.Points
import proofs.«147471_j32341103738939_1_alg».proof.Proof.Gen.Kernel.Frame
import proofs.«147471_j32341103738939_1_alg».proof.Proof.Gen.KernelIdeal
import proofs.«147471_j32341103738939_1_alg».proof.Proof.Gen.KernelIdeal.Skeleton
import proofs.«147471_j32341103738939_1_alg».proof.Proof.Gen.KernelIdeal.Launch
import proofs.«147471_j32341103738939_1_alg».proof.Proof.Gen.KernelIdeal.Points
import proofs.«147471_j32341103738939_1_alg».proof.Proof.Gen.KernelIdeal.Frame
import proofs.«147471_j32341103738939_1_alg».proof.Proof.Gen.ReferenceIdeal
import proofs.«147471_j32341103738939_1_alg».proof.Proof.Gen.Pre_finite_inputs
import proofs.«147471_j32341103738939_1_alg».proof.Proof.KernelRun
import proofs.«147471_j32341103738939_1_alg».proof.Proof.KernelValue
import proofs.«147471_j32341103738939_1_alg».proof.Proof.RefRun
import Idealize.ShloMosaic.Adequacy
import Idealize.ShloMosaic.Init

set_option maxRecDepth 16384

noncomputable section

namespace Cert.Proof

open Idealize.ShloMosaic Idealize.SL.Sem

/-- The two programs' host aggregations are one function: the same operations with the same dimension numbers. -/
theorem agg_eq (h : FVec Ideal Cert.KernelIdeal.S50000x128 .f32) (src dst : IVec Cert.KernelIdeal.S800000 32) :
    Cert.ReferenceIdeal.Layer.agg h src dst = Cert.KernelIdeal.ValueOf.agg h src dst := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Layer.run m ρ)

/-- From memories that agree on the arguments both programs end with the second layer's output joined with the input
    features: the kernel program by its run and the regions' values, the reference by its run, read stretch by stretch. -/
theorem algebraic : Cert.algebraic_KernelIdeal_ReferenceIdeal := by
  intro m ρ m' ρ' _ hagree
  refine ⟨fun c => concatenate Cert.KernelIdeal.S50000x256 1
      [⟨Cert.KernelIdeal.S50000x128, Cert.KernelIdeal.ValueOf.out2 m c⟩,
       ⟨Cert.KernelIdeal.S50000x128, m ((c.tc : Thread Cert.KernelIdeal.nD Cert.KernelIdeal.τ).loc Cert.KernelIdeal.main_arg0)⟩]
      Cert.KernelIdeal.Facts₀.concatenates_S50000x128_S50000x128_S50000x256_d1, ?_, ?_⟩
  · exact (θ_run Cert.KernelIdeal.defs _ _).mono
      (fun r h c => ⟨(h c).1.trans (Cert.KernelIdeal.ValueOf.W5_result m ρ c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.Layer.run m' ρ')
    unfold Cert.ReferenceIdeal.Layer.out2 Cert.ReferenceIdeal.Layer.out1 Cert.KernelIdeal.ValueOf.out2 Cert.KernelIdeal.ValueOf.out1
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]
    simp only [agg_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
